-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S4x2048x768 .f32) (main_arg1 : FVec F S768 .f32) (main_arg2 : FVec F S3072x768 .f32) (main_arg3 : FVec F S3072 .f32) (main_arg4 : FVec F S768x3072 .f32) (main_arg5 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S3072x768 .f32 := Host.absf main_arg2
  let main_cst_2 : FVec F S_ .f32 := constant S_ .f32 0x7F800000#32
  let main_v10 : FVec F S3072x768 .f32 := broadcastInDim S3072x768 ![] bcast_S_S3072x768 main_cst_2
  let main_v11 : IVec S3072x768 1 := cmpf .olt main_v9 main_v10
  let main_c_3 : IVec S_ 1 := constantI S_ 1 1#1
  let main_v12 : IVec S_ 1 := (fun x v => Host.reduce IntOp.andi x v reducesTo_S3072x768_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S8192x768 : Shape := ⟨2, ![8192, 768]⟩
abbrev S256x768 : Shape := ⟨2, ![256, 768]⟩
abbrev S1x768 : Shape := ⟨2, ![1, 768]⟩
abbrev S256x3072 : Shape := ⟨2, ![256, 3072]⟩
abbrev S1x3072 : Shape := ⟨2, ![1, 3072]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S3072x768, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8192x768, .f32⟩
  | .hbm, ⟨7, _⟩ => ⟨S768, .f32⟩
  | .hbm, ⟨8, _⟩ => ⟨S768x3072, .f32⟩
  | .hbm, ⟨9, _⟩ => ⟨S768x3072, .bf16⟩
  | .hbm, ⟨10, _⟩ => ⟨S3072x768, .f32⟩
  | .hbm, ⟨11, _⟩ => ⟨S3072x768, .bf16⟩
  | .hbm, ⟨12, _⟩ => ⟨S8192x768, .f32⟩
  | .hbm, ⟨13, _⟩ => ⟨S4x2048x768, .f32⟩
  | .local _ .vmem, ⟨0, _⟩ => ⟨S256x768, .f32⟩
  | .local _ .vmem, ⟨1, _⟩ => ⟨S256x768, .f32⟩
  | .local _ .vmem, ⟨2, _⟩ => ⟨S768, .f32⟩
  | .local _ .vmem, ⟨3, _⟩ => ⟨S768x3072, .bf16⟩
  | .local _ .vmem, ⟨4, _⟩ => ⟨S3072x768, .bf16⟩
  | .local _ .vmem, ⟨5, _⟩ => ⟨S3072, .f32⟩
  | .local _ .vmem, ⟨6, _⟩ => ⟨S768, .f32⟩
  | .local _ .vmem, ⟨7, _⟩ => ⟨S256x768, .f32⟩
  | .local _ .vmem, ⟨8, _⟩ => ⟨S256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x2048x768_S8192x768 : S4x2048x768.ShapeCasts S8192x768
  transposes_S3072x768_S768x3072_1_0 : S3072x768.Transposes [1, 0] S768x3072
  bitsLt_bf16_f32 : FTy.bits .bf16 < FTy.bits .f32
  transposes_S768x3072_S3072x768_1_0 : S768x3072.Transposes [1, 0] S3072x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S256x768 : S1x768.Broadcasts S256x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  shapeCasts_S8192x768_S4x2048x768 : S8192x768.ShapeCasts S4x2048x768
  dot_S256x768_S768x3072_S256x3072_1_0_0_1_n_n_wf : DotDims.WF S256x768 S768x3072 S256x3072 [1] [0] [0] [1] [] []
  dot_S256x3072_S3072x768_S256x768_1_0_0_1_n_n_wf : DotDims.WF S256x3072 S3072x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S8192x768.size a
  hwx0_0 : ∀ i : grid0.Coords, EltTy.bits .f32 = 32 ∨ (Rect.block (s := S8192x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x3072.size a ≤ S768x3072.size a
  hwx0_2 : ∀ i : grid0.Coords, EltTy.bits .bf16 = 32 ∨ (Rect.block (s := S768x3072) S768x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x768.size a ≤ S3072x768.size a
  hwx0_3 : ∀ i : grid0.Coords, EltTy.bits .bf16 = 32 ∨ (Rect.block (s := S3072x768) S3072x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S8192x768.size a
  hwx0_6 : ∀ i : grid0.Coords, EltTy.bits .f32 = 32 ∨ (Rect.block (s := S8192x768) S256x768.size (cc0_transform_6 i) (hinb0_6 i)).WholeWords (EltTy.packing .f32)

variable [Facts₀]

def dot_S256x768_S768x3072_S256x3072_1_0_0_1_n_n : DotDims S256x768 S768x3072 S256x3072 where
  lhsContracting := [1]
  rhsContracting := [0]
  lhsNonContracting := [0]
  rhsNonContracting := [1]
  lhsBatch := []
  rhsBatch := []
  wf := dot_S256x768_S768x3072_S256x3072_1_0_0_1_n_n_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3072x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S1x1x768 : Shape := ⟨3, ![1, 1, 768]⟩
abbrev S4x2048x3072 : Shape := ⟨3, ![4, 2048, 3072]⟩
abbrev S1x1x3072 : Shape := ⟨3, ![1, 1, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S3072x768, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S4x2048x768, .f32⟩
  | .hbm, ⟨7, _⟩ => ⟨S768, .f32⟩
  | .hbm, ⟨8, _⟩ => ⟨S1x1x768, .f32⟩
  | .hbm, ⟨9, _⟩ => ⟨S4x2048x768, .f32⟩
  | .hbm, ⟨10, _⟩ => ⟨S4x2048x768, .f32⟩
  | .hbm, ⟨11, _⟩ => ⟨S4x2048x3072, .f32⟩
  | .hbm, ⟨12, _⟩ => ⟨S1x1x3072, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S4x2048x768, .f32⟩
  | .hbm, ⟨19, _⟩ => ⟨S1x1x768, .f32⟩
  | .hbm, ⟨20, _⟩ => ⟨S4x2048x768, .f32⟩
  | .hbm, ⟨21, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  bcast_S_S4x2048x3072 : S_.BroadcastsInDim S4x2048x3072 (![] : Fin 0 → Fin S4x2048x3072.rank)
  dot_S4x2048x768_S3072x768_S4x2048x3072_2_1_01_0_n_n_wf : DotDims.WF S4x2048x768 S3072x768 S4x2048x3072 [2] [1] [0, 1] [0] [] []
  dot_S4x2048x3072_S768x3072_S4x2048x768_2_1_01_0_n_n_wf : DotDims.WF S4x2048x3072 S768x3072 S4x2048x768 [2] [1] [0, 1] [0] [] []

variable [Facts₀]

def dot_S4x2048x768_S3072x768_S4x2048x3072_2_1_01_0_n_n : DotDims S4x2048x768 S3072x768 S4x2048x3072 where
  lhsContracting := [2]
  rhsContracting := [1]
  lhsNonContracting := [0, 1]
  rhsNonContracting := [0]
  lhsBatch := []
  rhsBatch := []
  wf := dot_S4x2048x768_S3072x768_S4x2048x3072_2_1_01_0_n_n_wf
def dot_S4x2048x3072_S768x3072_S4x2048x768_2_1_01_0_n_n : DotDims S4x2048x3072 S768x3072 S4x2048x768 where
  lhsContracting := [2]
  rhsContracting := [1]
  lhsNonContracting := [0, 1]
  rhsNonContracting := [0]
  lhsBatch := []
  rhsBatch := []
  wf := dot_S4x2048x3072_S768x3072_S4x2048x768_2_1_01_0_n_n_wf

class Facts : Prop extends Facts₀ where

variable [Facts]
-- ==== Proof.FfnSpec.lean ====
/-
  What both programs compute, one token at a time.

  A token is a row `xr` of 768 extended reals. Its features are `cos (xr k) · cp k` (`cp` a row of 768 factors: the
  cosines of the parameters). Hidden unit `f` (of 3072) is the rectified affine form
  `max (∑ k, cos (xr k) · cp k · w1 f k + b1 f) 0`, and output `e` (of 768) is `∑ f, hidden f · w2 e f + b2 e`.
  Nothing else is in either program: the array of shape [4, 2048, 768] is 8192 tokens, each mapped by `token`
  with the same weights (`onTokens`), and a kernel that works on the tokens laid out as [8192, 768], with the weight
  matrices given transposed, computes `onRows`; `reshape_onRows` says the two are one array, re-laid.
-/
import Idealize.ShloMosaic.PureOps.Ideal
import Idealize.ShloMosaic.Lib.ValueIdx
import Idealize.ShloMosaic.Lib.ValueLayout
import Idealize.ShloMosaic.Lib.Pipeline.Value

noncomputable section

namespace Cert.Ffn

open Idealize.ShloMosaic Idealize.ShloMosaic.ValueIdx

/-- The shapes of the arrays the two programs name. -/
abbrev Tok : Shape := ⟨3, ![4, 2048, 768]⟩
abbrev Rows : Shape := ⟨2, ![8192, 768]⟩
abbrev VecE : Shape := ⟨1, ![768]⟩
abbrev VecF : Shape := ⟨1, ![3072]⟩
abbrev MatFE : Shape := ⟨2, ![3072, 768]⟩
abbrev MatEF : Shape := ⟨2, ![768, 3072]⟩

/-- Hidden unit `f` of one token: the rectified affine form of the token's cosine features. -/
def hidden (xr cp : Fin 768 → EReal) (w1 : Fin 3072 → Fin 768 → EReal) (b1 : Fin 3072 → EReal) (f : Fin 3072) : EReal :=
  max ((∑ k : Fin 768, Ideal.cos (xr k) * cp k * w1 f k) + b1 f) 0

/-- Output `e` of one token: the affine form of its hidden units. -/
def token (xr cp : Fin 768 → EReal) (w1 : Fin 3072 → Fin 768 → EReal) (b1 : Fin 3072 → EReal)
    (w2 : Fin 768 → Fin 3072 → EReal) (b2 : Fin 768 → EReal) (e : Fin 768) : EReal :=
  (∑ f : Fin 3072, hidden xr cp w1 b1 f * w2 e f) + b2 e

/-- The whole result over [4, 2048, 768]: token `(b, s)` is row `x[b, s, ·]`; the factors are the cosines of `p`; the
    weights are read as given, `W1[f, k]` and `W2[e, f]`. -/
def onTokens (x : Tok.Idx → EReal) (p : VecE.Idx → EReal) (W1 : MatFE.Idx → EReal) (b1 : VecF.Idx → EReal)
    (W2 : MatEF.Idx → EReal) (b2 : VecE.Idx → EReal) : Tok.Idx → EReal :=
  fun i => token (fun k => x (ix3 (i 0) (i 1) k)) (fun k => Ideal.cos (p (ix1 k))) (fun f k => W1 (ix2 f k))
    (fun f => b1 (ix1 f)) (fun e f => W2 (ix2 e f)) (fun e => b2 (ix1 e)) (i 2)

/-- The same over the tokens laid out as the rows of [8192, 768], the factors `cp` given, the weights given
    TRANSPOSED: `A[k, f]` for `W1[f, k]` and `B[f, e]` for `W2[e, f]`. -/
def onRows (X : Rows.Idx → EReal) (cp : VecE.Idx → EReal) (A : MatEF.Idx → EReal) (b1 : VecF.Idx → EReal)
    (B : MatFE.Idx → EReal) (b2 : VecE.Idx → EReal) : Rows.Idx → EReal :=
  fun i => token (fun k => X (ix2 (i 0) k)) (fun k => cp (ix1 k)) (fun f k => A (ix2 k f))
    (fun f => b1 (ix1 f)) (fun e f => B (ix2 f e)) (fun e => b2 (ix1 e)) (i 1)

/-- Token `(b, s)` is row `2048 · b + s`. -/
def rowOf (b : Fin 4) (s : Fin 2048) : Fin 8192 := ⟨b.val * 2048 + s.val, by have := b.isLt; have := s.isLt; omega⟩

/-- A [4, 2048, 768] array re-laid as [8192, 768] reads, at row `2048 · b + s`, the array at `(b, s, ·)`. -/
theorem rows_of_tokens {α : Type} (x : Tok.Idx → α) (h : Tok.ShapeCasts Rows) (b : Fin 4) (s : Fin 2048) (k : Fin 768) :
    shapeCast Rows x h (ix2 (rowOf b s) k) = x (ix3 b s k) :=
  shapeCast_apply x h _ _ (by
    rw [Shape.rowMajor_val_three, Shape.rowMajor_val_two]
    rfl)

/-- A [8192, 768] array re-laid as [4, 2048, 768] reads, at `(b, s, ·)`, row `2048 · b + s`. -/
theorem tokens_of_rows {α : Type} (Y : Rows.Idx → α) (h : Rows.ShapeCasts Tok) (b : Fin 4) (s : Fin 2048) (e : Fin 768) :
    shapeCast Tok Y h (ix3 b s e) = Y (ix2 (rowOf b s) e) :=
  shapeCast_apply Y h _ _ (by
    rw [Shape.rowMajor_val_three, Shape.rowMajor_val_two]
    rfl)

/-- The rows' result, re-laid as [4, 2048, 768], is the tokens' result: when the rows are the tokens re-laid, the
    factors the parameters' cosines, and `A`, `B` the two weight matrices transposed. -/
theorem reshape_onRows (x : Tok.Idx → EReal) (p : VecE.Idx → EReal) (W1 : MatFE.Idx → EReal) (b1 : VecF.Idx → EReal)
    (W2 : MatEF.Idx → EReal) (b2 : VecE.Idx → EReal)
    (X : Rows.Idx → EReal) (cp : VecE.Idx → EReal) (A : MatEF.Idx → EReal) (B : MatFE.Idx → EReal)
    (hX : ∀ b s k, X (ix2 (rowOf b s) k) = x (ix3 b s k)) (hcp : ∀ k, cp (ix1 k) = Ideal.cos (p (ix1 k)))
    (hA : ∀ k f, A (ix2 k f) = W1 (ix2 f k)) (hB : ∀ f e, B (ix2 f e) = W2 (ix2 e f))
    (h : Rows.ShapeCasts Tok) :
    shapeCast Tok (onRows X cp A b1 B b2) h = onTokens x p W1 b1 W2 b2 := by
  funext i
  obtain ⟨b, s, e, rfl⟩ : ∃ (b : Fin 4) (s : Fin 2048) (e : Fin 768), i = ix3 b s e := ⟨i 0, i 1, i 2, eq_ix3 i⟩
  rw [tokens_of_rows]
  show token (fun k => X (ix2 (rowOf b s) k)) (fun k => cp (ix1 k)) (fun f k => A (ix2 k f)) (fun f => b1 (ix1 f))
      (fun e f => B (ix2 f e)) (fun e => b2 (ix1 e)) e
    = token (fun k => x (ix3 b s k)) (fun k => Ideal.cos (p (ix1 k))) (fun f k => W1 (ix2 f k)) (fun f => b1 (ix1 f))
      (fun e f => W2 (ix2 e f)) (fun e => b2 (ix1 e)) e
  simp only [hX, hcp, hA, hB]

end Cert.Ffn

end
-- ==== Proof.RefIsFfn.lean ====
/-
  The reference is `Ffn.onTokens`.

  Read one operation at a time, the reference's result at `(b, s, e)` is
  `∑ f, max (∑ k, cos x[b,s,k] · cos p[k] · W1[f,k] + b1[f]) 0 · W2[e,f] + b2[e]`: the two contractions are sums over the
  contracted coordinate, the broadcasts read their operand at the last coordinate, the rectifier is the maximum with the
  zero word. That is `Ffn.token` of row `x[b, s, ·]`, term for term.
-/
import proofs.«125096_j65481071409452_1_alg».proof.Proof.Gen.ReferenceIdeal.Read
import proofs.«125096_j65481071409452_1_alg».proof.Proof.FfnSpec

noncomputable section

namespace Cert.Ffn.Ref

open Cert.ReferenceIdeal Cert.ReferenceIdeal.Read Idealize.ShloMosaic Idealize.ShloMosaic.ValueIdx

/-! The operand indices the reading lemmas name, as coordinates. -/

theorem lhs2 (b : Fin 4) (s : Fin 2048) (e : Fin 768) (f : Fin 3072) :
    lidx_main_v10 (ix3 b s e) f = ix3 b s f :=
  funext fun a => by match a with | ⟨0, _⟩ => rfl | ⟨1, _⟩ => rfl | ⟨2, _⟩ => rfl
theorem rhs2 (b : Fin 4) (s : Fin 2048) (e : Fin 768) (f : Fin 3072) :
    ridx_main_v10 (ix3 b s e) f = ix2 e f :=
  funext fun a => by match a with | ⟨0, _⟩ => rfl | ⟨1, _⟩ => rfl
theorem lhs1 (b : Fin 4) (s : Fin 2048) (f : Fin 3072) (k : Fin 768) :
    lidx_main_v5 (ix3 b s f) k = ix3 b s k :=
  funext fun a => by match a with | ⟨0, _⟩ => rfl | ⟨1, _⟩ => rfl | ⟨2, _⟩ => rfl
theorem rhs1 (b : Fin 4) (s : Fin 2048) (f : Fin 3072) (k : Fin 768) :
    ridx_main_v5 (ix3 b s f) k = ix2 f k :=
  funext fun a => by match a with | ⟨0, _⟩ => rfl | ⟨1, _⟩ => rfl
theorem bias2 (b : Fin 4) (s : Fin 2048) (e : Fin 768) :
    idx_main_v11 (idx_main_v12 (ix3 b s e)) = ix1 e :=
  funext fun a => by match a with | ⟨0, _⟩ => rfl
theorem bias1 (b : Fin 4) (s : Fin 2048) (f : Fin 3072) :
    idx_main_v6 (idx_main_v7 (ix3 b s f)) = ix1 f :=
  funext fun a => by match a with | ⟨0, _⟩ => rfl
theorem factor (b : Fin 4) (s : Fin 2048) (k : Fin 768) :
    idx_main_v2 (idx_main_v3 (ix3 b s k)) = ix1 k :=
  funext fun a => by match a with | ⟨0, _⟩ => rfl

/-- The reference's hidden layer at `(b, s, f)`. -/
theorem hidden_eq (x0 : Ffn.Tok.Idx → EReal) (x1 : Ffn.VecE.Idx → EReal) (x2 : Ffn.MatFE.Idx → EReal) (x3 : Ffn.VecF.Idx → EReal)
    (b : Fin 4) (s : Fin 2048) (f : Fin 3072) :
    val_main_v9 (F := Ideal) x0 x1 x2 x3 (ix3 b s f)
      = Ffn.hidden (fun k => x0 (ix3 b s k)) (fun k => Ideal.cos (x1 (ix1 k))) (fun f k => x2 (ix2 f k)) (fun f => x3 (ix1 f)) f := by
  rw [val_main_v9_apply, val_main_v8_apply, val_main_v5_apply, val_main_v7_apply, val_main_v6_apply,
    val_main_call0_v0_apply, val_main_call0_cst_apply, bias1]
  simp only [lhs1, rhs1, val_main_v4_apply, val_main_v0_apply, val_main_v3_apply, val_main_v2_apply, val_main_v1_apply, factor]
  simp only [Ideal.maximumf_def, Ideal.addf_def, Ideal.mulf_def, Ideal.hostUnary_cos_def, Ideal.ofBits_def, Ideal.ofBits_zero_f32]
  rfl

/-- The reference's result is `Ffn.onTokens` of its arguments. -/
theorem result_eq (x0 : Ffn.Tok.Idx → EReal) (x1 : Ffn.VecE.Idx → EReal) (x2 : Ffn.MatFE.Idx → EReal) (x3 : Ffn.VecF.Idx → EReal)
    (x4 : Ffn.MatEF.Idx → EReal) (x5 : Ffn.VecE.Idx → EReal) :
    val_main_v13 (F := Ideal) x0 x1 x2 x3 x4 x5 = Ffn.onTokens x0 x1 x2 x3 x4 x5 := by
  funext i
  obtain ⟨b, s, e, rfl⟩ : ∃ (b : Fin 4) (s : Fin 2048) (e : Fin 768), i = ix3 b s e := ⟨i 0, i 1, i 2, eq_ix3 i⟩
  rw [val_main_v13_apply, val_main_v10_apply, val_main_v12_apply, val_main_v11_apply, bias2]
  simp only [lhs2, rhs2, hidden_eq, Ideal.addf_def]
  rfl

end Cert.Ffn.Ref

end
-- ==== Proof.TokenPayload.lean ====
/-
  The kernel body's arithmetic, read at one element.

  The body stores ONE value: its payload, a [256, 768] block computed from the six loaded blocks — 256 token rows `x`,
  the 768 factors `cp`, the first weight matrix as [768, 3072], the 3072 hidden biases, the second weight matrix as
  [3072, 768], the 768 output biases. Read at `(p, q)` it is `Ffn.token` of row `p` of `x` at output `q`: a matrix
  product into a zero accumulator is the sum over the contracted coordinate, a change of float format is the
  identity, a row broadcast over 256 rows reads the row, the rectifier is the maximum with the zero word.
-/
import proofs.«125096_j65481071409452_1_alg».proof.Proof.Gen.KernelIdeal.Skeleton
import proofs.«125096_j65481071409452_1_alg».proof.Proof.FfnSpec
import Idealize.ShloMosaic.PureOps.Ideal.Laws

noncomputable section

namespace Cert.Ffn.Body

open Cert.KernelIdeal Cert.KernelIdeal.Gen Idealize.ShloMosaic Idealize.ShloMosaic.ValueIdx

/-! ## The two products' operand indices, axis by axis -/

theorem lhsA_0 (i : S256x3072.Idx) (q : dot_S256x768_S768x3072_S256x3072_1_0_0_1_n_n.contr.Idx) :
    (dot_S256x768_S768x3072_S256x3072_1_0_0_1_n_n.lhsIdx i q 0).val = (i 0).val := by
  unfold DotDims.lhsIdx
  rw [dif_neg (show ¬(0 : Fin S256x768.rank) ∈ dot_S256x768_S768x3072_S256x3072_1_0_0_1_n_n.lhsBatch by decide), dif_pos (show (0 : Fin S256x768.rank) ∈ dot_S256x768_S768x3072_S256x3072_1_0_0_1_n_n.lhsNonContracting by decide)]
  rfl
theorem lhsA_1 (i : S256x3072.Idx) (q : dot_S256x768_S768x3072_S256x3072_1_0_0_1_n_n.contr.Idx) :
    (dot_S256x768_S768x3072_S256x3072_1_0_0_1_n_n.lhsIdx i q 1).val = (q ⟨0, by decide⟩).val :=
  dot_S256x768_S768x3072_S256x3072_1_0_0_1_n_n.lhsIdx_val_of_single rfl i q
theorem rhsA_0 (i : S256x3072.Idx) (q : dot_S256x768_S768x3072_S256x3072_1_0_0_1_n_n.contr.Idx) :
    (dot_S256x768_S768x3072_S256x3072_1_0_0_1_n_n.rhsIdx i q 0).val = (q ⟨0, by decide⟩).val :=
  dot_S256x768_S768x3072_S256x3072_1_0_0_1_n_n.rhsIdx_val_of_single rfl i q
theorem rhsA_1 (i : S256x3072.Idx) (q : dot_S256x768_S768x3072_S256x3072_1_0_0_1_n_n.contr.Idx) :
    (dot_S256x768_S768x3072_S256x3072_1_0_0_1_n_n.rhsIdx i q 1).val = (i 1).val := by
  unfold DotDims.rhsIdx
  rw [dif_neg (show ¬(1 : Fin S768x3072.rank) ∈ dot_S256x768_S768x3072_S256x3072_1_0_0_1_n_n.rhsBatch by decide), dif_pos (show (1 : Fin S768x3072.rank) ∈ dot_S256x768_S768x3072_S256x3072_1_0_0_1_n_n.rhsNonContracting by decide)]
  rfl

theorem lhsB_0 (i : S256x768.Idx) (q : dot_S256x3072_S3072x768_S256x768_1_0_0_1_n_n.contr.Idx) :
    (dot_S256x3072_S3072x768_S256x768_1_0_0_1_n_n.lhsIdx i q 0).val = (i 0).val := by
  unfold DotDims.lhsIdx
  rw [dif_neg (show ¬(0 : Fin S256x3072.rank) ∈ dot_S256x3072_S3072x768_S256x768_1_0_0_1_n_n.lhsBatch by decide), dif_pos (show (0 : Fin S256x3072.rank) ∈ dot_S256x3072_S3072x768_S256x768_1_0_0_1_n_n.lhsNonContracting by decide)]
  rfl
theorem lhsB_1 (i : S256x768.Idx) (q : dot_S256x3072_S3072x768_S256x768_1_0_0_1_n_n.contr.Idx) :
    (dot_S256x3072_S3072x768_S256x768_1_0_0_1_n_n.lhsIdx i q 1).val = (q ⟨0, by decide⟩).val :=
  dot_S256x3072_S3072x768_S256x768_1_0_0_1_n_n.lhsIdx_val_of_single rfl i q
theorem rhsB_0 (i : S256x768.Idx) (q : dot_S256x3072_S3072x768_S256x768_1_0_0_1_n_n.contr.Idx) :
    (dot_S256x3072_S3072x768_S256x768_1_0_0_1_n_n.rhsIdx i q 0).val = (q ⟨0, by decide⟩).val :=
  dot_S256x3072_S3072x768_S256x768_1_0_0_1_n_n.rhsIdx_val_of_single rfl i q
theorem rhsB_1 (i : S256x768.Idx) (q : dot_S256x3072_S3072x768_S256x768_1_0_0_1_n_n.contr.Idx) :
    (dot_S256x3072_S3072x768_S256x768_1_0_0_1_n_n.rhsIdx i q 1).val = (i 1).val := by
  unfold DotDims.rhsIdx
  rw [dif_neg (show ¬(1 : Fin S3072x768.rank) ∈ dot_S256x3072_S3072x768_S256x768_1_0_0_1_n_n.rhsBatch by decide), dif_pos (show (1 : Fin S3072x768.rank) ∈ dot_S256x3072_S3072x768_S256x768_1_0_0_1_n_n.rhsNonContracting by decide)]
  rfl

/-! ## The two products at an element -/

/-- Features [256, 768] times weights [768, 3072] into a zero accumulator, at `(p, f)`: the sum over `k`. -/
theorem first_product (L : FVec Ideal S256x768 .bf16) (R : FVec Ideal S768x3072 .bf16) (p : Fin 256) (f : Fin 3072) :
    matmul dot_S256x768_S768x3072_S256x3072_1_0_0_1_n_n none L R (constant S256x3072 .f32 0x00000000#32) (ix2 p f)
      = ∑ k : Fin 768, L (ix2 p k) * R (ix2 k f) := by
  simp only [matmul]
  rw [Ideal.matmul_constant_zero_apply, ← Equiv.sum_comp (ValueIdx.contrEquiv1 dot_S256x768_S768x3072_S256x3072_1_0_0_1_n_n 768 rfl rfl).symm]
  refine Finset.sum_congr rfl fun k _ => ?_
  have hk := ValueIdx.contrEquiv1_symm_val dot_S256x768_S768x3072_S256x3072_1_0_0_1_n_n 768 rfl rfl k
  have el : dot_S256x768_S768x3072_S256x3072_1_0_0_1_n_n.lhsIdx (ix2 p f) ((ValueIdx.contrEquiv1 dot_S256x768_S768x3072_S256x3072_1_0_0_1_n_n 768 rfl rfl).symm k) = ix2 p k := funext fun a => Fin.ext (by
    match a with
    | ⟨0, _⟩ => exact lhsA_0 _ _
    | ⟨1, _⟩ => exact (lhsA_1 _ _).trans hk)
  have er : dot_S256x768_S768x3072_S256x3072_1_0_0_1_n_n.rhsIdx (ix2 p f) ((ValueIdx.contrEquiv1 dot_S256x768_S768x3072_S256x3072_1_0_0_1_n_n 768 rfl rfl).symm k) = ix2 k f := funext fun a => Fin.ext (by
    match a with
    | ⟨0, _⟩ => exact (rhsA_0 _ _).trans hk
    | ⟨1, _⟩ => exact rhsA_1 _ _)
  rw [el, er]

/-- Hidden units [256, 3072] times weights [3072, 768] into a zero accumulator, at `(p, e)`: the sum over `f`. -/
theorem second_product (L : FVec Ideal S256x3072 .bf16) (R : FVec Ideal S3072x768 .bf16) (p : Fin 256) (e : Fin 768) :
    matmul dot_S256x3072_S3072x768_S256x768_1_0_0_1_n_n none L R (constant S256x768 .f32 0x00000000#32) (ix2 p e)
      = ∑ f : Fin 3072, L (ix2 p f) * R (ix2 f e) := by
  simp only [matmul]
  rw [Ideal.matmul_constant_zero_apply, ← Equiv.sum_comp (ValueIdx.contrEquiv1 dot_S256x3072_S3072x768_S256x768_1_0_0_1_n_n 3072 rfl rfl).symm]
  refine Finset.sum_congr rfl fun k _ => ?_
  have hk := ValueIdx.contrEquiv1_symm_val dot_S256x3072_S3072x768_S256x768_1_0_0_1_n_n 3072 rfl rfl k
  have el : dot_S256x3072_S3072x768_S256x768_1_0_0_1_n_n.lhsIdx (ix2 p e) ((ValueIdx.contrEquiv1 dot_S256x3072_S3072x768_S256x768_1_0_0_1_n_n 3072 rfl rfl).symm k) = ix2 p k := funext fun a => Fin.ext (by
    match a with
    | ⟨0, _⟩ => exact lhsB_0 _ _
    | ⟨1, _⟩ => exact (lhsB_1 _ _).trans hk)
  have er : dot_S256x3072_S3072x768_S256x768_1_0_0_1_n_n.rhsIdx (ix2 p e) ((ValueIdx.contrEquiv1 dot_S256x3072_S3072x768_S256x768_1_0_0_1_n_n 3072 rfl rfl).symm k) = ix2 k e := funext fun a => Fin.ext (by
    match a with
    | ⟨0, _⟩ => exact (rhsB_0 _ _).trans hk
    | ⟨1, _⟩ => exact rhsB_1 _ _)
  rw [el, er]

/-! ## A vector laid over 256 rows -/

/-- A length-`n` vector viewed [1, n] and broadcast to [256, n] reads, at `(p, k)`, the vector at `k`. -/
theorem row_over_rows {n : Nat} (v : (⟨1, ![n]⟩ : Shape).Idx → EReal) (h1 : (⟨1, ![n]⟩ : Shape).ShapeCasts ⟨2, ![1, n]⟩)
    (h2 : (⟨2, ![1, n]⟩ : Shape).Broadcasts ⟨2, ![256, n]⟩) (p : Fin 256) (k : Fin n) :
    broadcastTo ⟨2, ![256, n]⟩ (shapeCast ⟨2, ![1, n]⟩ v h1) h2 (ix2 p k) = v (ix1 k) := by
  rw [broadcastTo_1b_ab_apply, shapeCast_a_1a_apply]

/-! ## The payload -/

/-- The stored block at `(p, q)` is `Ffn.token` of row `p` of the token block, at output `q`. -/
theorem payload_apply (x : Vec Ideal S256x768 .f32) (cp : Vec Ideal S768 .f32) (A : Vec Ideal S768x3072 .bf16)
    (b1 : Vec Ideal S3072 .f32) (B : Vec Ideal S3072x768 .bf16) (b2 : Vec Ideal S768 .f32) (p : Fin 256) (q : Fin 768) :
    k0_pay1 (F := Ideal) x cp A b1 B b2 (ix2 p q)
      = Ffn.token (fun k => x (ix2 p k)) (fun k => cp (ix1 k)) (fun f k => A (ix2 k f)) (fun f => b1 (ix1 f))
          (fun e f => B (ix2 f e)) (fun e => b2 (ix1 e)) q := by
  unfold k0_pay1
  simp only [shapeCast_self]
  rw [addf_apply, second_product, row_over_rows]
  unfold Ffn.token
  congr 1
  refine Finset.sum_congr rfl fun f _ => ?_
  rw [truncf_apply, maximumf_apply, addf_apply, first_product, row_over_rows, broadcast_apply]
  unfold Ffn.hidden
  congr 2
  · congr 1
    refine Finset.sum_congr rfl fun k _ => ?_
    rw [truncf_apply, mulf_apply, row_over_rows]
    rfl
  · show Ideal.ofBits .f32 0x00000000#32 = 0
    exact Ideal.ofBits_zero_f32

end Cert.Ffn.Body

end
-- ==== Proof.KernelArray.lean ====
/-
  The kernel's result array.

  The region has 32 points; point `t` fetches token rows `256 t … 256 t + 255` and the five weight arrays whole, and
  writes back rows `256 t … 256 t + 255` of the result. Row `p` of that block is `Ffn.token` of row `p` of the fetched
  rows (the payload read at an element), which is row `256 t + p` of `Ffn.onRows` of the arrays as the region finds
  them. The 32 blocks tile the [8192, 768] array, so the array ends holding `Ffn.onRows`. The arrays the region
  finds are the host's work on the arguments: the tokens re-laid as rows, the parameters' cosines, the two weight
  matrices transposed (their change of float format the identity); the line after the region re-lays the result as
  [4, 2048, 768]. By `Ffn.reshape_onRows` that is `Ffn.onTokens` of the arguments.
-/
import proofs.«125096_j65481071409452_1_alg».proof.Proof.Gen.KernelIdeal.Frame
import proofs.«125096_j65481071409452_1_alg».proof.Proof.TokenPayload
import proofs.«125096_j65481071409452_1_alg».proof.Proof.FfnSpec
import Idealize.ShloMosaic.Lib.Pipeline.Value
import Idealize.ShloMosaic.Lib.StableHlo.Run

noncomputable section

namespace Cert.Ffn.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the region finds them, at their literal types -/

abbrev rowsArr (c : Dev nD) : Vec Ideal S8192x768 .f32 := V m c main_v0
abbrev facArr (c : Dev nD) : Vec Ideal S768 .f32 := V m c main_v1
abbrev w1tArr (c : Dev nD) : Vec Ideal S768x3072 .bf16 := V m c main_v3
abbrev w2tArr (c : Dev nD) : Vec Ideal S3072x768 .bf16 := V m c main_v5
abbrev b1Arr (c : Dev nD) : Vec Ideal S3072 .f32 := V m c main_arg3
abbrev b2Arr (c : Dev nD) : Vec Ideal S768 .f32 := V m c main_arg5

/-- The arguments, at their literal types. -/
abbrev xArg (c : Dev nD) : Vec Ideal S4x2048x768 .f32 := m ((c : Thread nD τ).loc main_arg0)
abbrev pArg (c : Dev nD) : Vec Ideal S768 .f32 := m ((c : Thread nD τ).loc main_arg1)
abbrev w1Arg (c : Dev nD) : Vec Ideal S3072x768 .f32 := m ((c : Thread nD τ).loc main_arg2)
abbrev b1Arg (c : Dev nD) : Vec Ideal S3072 .f32 := m ((c : Thread nD τ).loc main_arg3)
abbrev w2Arg (c : Dev nD) : Vec Ideal S768x3072 .f32 := m ((c : Thread nD τ).loc main_arg4)
abbrev b2Arg (c : Dev nD) : Vec Ideal S768 .f32 := m ((c : Thread nD τ).loc main_arg5)

/-- The token rows are the first argument re-laid. -/
theorem rowsArr_eq (c : Dev nD) : rowsArr m c = shapeCast S8192x768 (xArg m c) shapeCasts_S4x2048x768_S8192x768 := by
  show StableHlo.after hostOps0 (fun b => m (c, b)) (Proc.devRef .tc main_v0) = _
  after_results
  rfl

/-- The factors are the cosines of the second argument. -/
theorem facArr_eq (c : Dev nD) : facArr m c = Host.cos (F := Ideal) (φ := .f32) (pArg m c) := by
  show StableHlo.after hostOps0 (fun b => m (c, b)) (Proc.devRef .tc main_v1) = _
  after_results

/-- The first weight matrix arrives transposed (and in another float format: the identity here). -/
theorem w1tArr_eq (c : Dev nD) : w1tArr m c
    = truncf (F := Ideal) .bf16 (transpose S768x3072 [1, 0] (w1Arg m c) transposes_S3072x768_S768x3072_1_0) bitsLt_bf16_f32 := by
  show StableHlo.after hostOps0 (fun b => m (c, b)) (Proc.devRef .tc main_v3) = _
  after_results

/-- The second weight matrix arrives transposed likewise. -/
theorem w2tArr_eq (c : Dev nD) : w2tArr m c
    = truncf (F := Ideal) .bf16 (transpose S3072x768 [1, 0] (w2Arg m c) transposes_S768x3072_S3072x768_1_0) bitsLt_bf16_f32 := by
  show StableHlo.after hostOps0 (fun b => m (c, b)) (Proc.devRef .tc main_v5) = _
  after_results

/-- The biases arrive as launched. -/
theorem b1Arr_eq (c : Dev nD) : b1Arr m c = b1Arg m c := V_main_arg3 m c
theorem b2Arr_eq (c : Dev nD) : b2Arr m c = b2Arg m c := V_main_arg5 m c

/-! ## What the region leaves in its result array -/

/-- The result array the region leaves: `Ffn.onRows` of the arrays it finds. -/
def rowsOut (c : Dev nD) : Vec Ideal S8192x768 .f32 :=
  Ffn.onRows (rowsArr m c) (facArr m c) (w1tArr m c) (b1Arr m c) (w2tArr m c) (b2Arr m c)

theorem off2 : (![0, 0] : Fin 2 → Nat) = fun _ => 0 := funext fun a => by fin_cases a <;> rfl
theorem off1 : (![0] : Fin 1 → Nat) = fun _ => 0 := funext fun a => by fin_cases a <;> rfl

/-- The printed index maps over the grid: the token window and the result window are at block `(t, 0)`, every other
    window at block `0`. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0 :=
  (by decide +kernel : ∀ t : Fin grid0.N, _)

/-- Row `p` of the block at point `t` is row `256 t + p` of the array. -/
def rowAt (t : Fin cfg0.N) (p : Fin 256) : Fin 8192 :=
  ⟨t.val * 256 + p.val, by have h := t.isLt; have e : cfg0.N = 32 := N_0; have := p.isLt; omega⟩

/-! Each fetched block, read where the result block's rectangle says. -/

theorem tokBlk (c : Dev nD) (t : Fin cfg0.N) (p : Fin 256) (k : Fin 768) :
    (iblk m c 0 t : Vec Ideal S256x768 .f32) (ix2 p k) = rowsArr m c (ix2 (rowAt t p) k) := by
  obtain ⟨e0, e1, -⟩ := idx_facts t
  show V m c main_v0 (((cfg0.win 0).blk t).view.emb (ix2 p k)) = V m c main_v0 (ix2 (rowAt t p) k)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 768 + 1 * k.val = k.val; omega

theorem facBlk (c : Dev nD) (t : Fin cfg0.N) (k : Fin 768) :
    (iblk m c 1 t : Vec Ideal S768 .f32) (ix1 k) = facArr m c (ix1 k) := by
  obtain ⟨-, -, -, -, e, -⟩ := idx_facts t
  show V m c main_v1 (((cfg0.win 1).blk t).view.emb (ix1 k)) = V m c main_v1 (ix1 k)
  refine congrArg _ (funext fun a => Fin.ext ?_)
  match a with
  | ⟨0, _⟩ => show win0_1.index t (0 : Fin 1) * 768 + 1 * k.val = k.val; omega

theorem w1tBlk (c : Dev nD) (t : Fin cfg0.N) (k : Fin 768) (f : Fin 3072) :
    (iblk m c 2 t : Vec Ideal S768x3072 .bf16) (ix2 k f) = w1tArr m c (ix2 k f) := by
  obtain ⟨-, -, -, -, -, e0, e1, -⟩ := idx_facts t
  show V m c main_v3 (((cfg0.win 2).blk t).view.emb (ix2 k f)) = V m c main_v3 (ix2 k f)
  refine congrArg _ (funext fun a => Fin.ext ?_)
  match a with
  | ⟨0, _⟩ => show win0_2.index t (0 : Fin 2) * 768 + 1 * k.val = k.val; omega
  | ⟨1, _⟩ => show win0_2.index t (1 : Fin 2) * 3072 + 1 * f.val = f.val; omega

theorem w2tBlk (c : Dev nD) (t : Fin cfg0.N) (f : Fin 3072) (e : Fin 768) :
    (iblk m c 3 t : Vec Ideal S3072x768 .bf16) (ix2 f e) = w2tArr m c (ix2 f e) := by
  obtain ⟨-, -, -, -, -, -, -, e0, e1, -⟩ := idx_facts t
  show V m c main_v5 (((cfg0.win 3).blk t).view.emb (ix2 f e)) = V m c main_v5 (ix2 f e)
  refine congrArg _ (funext fun a => Fin.ext ?_)
  match a with
  | ⟨0, _⟩ => show win0_3.index t (0 : Fin 2) * 3072 + 1 * f.val = f.val; omega
  | ⟨1, _⟩ => show win0_3.index t (1 : Fin 2) * 768 + 1 * e.val = e.val; omega

theorem b1Blk (c : Dev nD) (t : Fin cfg0.N) (f : Fin 3072) :
    (iblk m c 4 t : Vec Ideal S3072 .f32) (ix1 f) = b1Arr m c (ix1 f) := by
  obtain ⟨-, -, -, -, -, -, -, -, -, e, -⟩ := idx_facts t
  show V m c main_arg3 (((cfg0.win 4).blk t).view.emb (ix1 f)) = V m c main_arg3 (ix1 f)
  refine congrArg _ (funext fun a => Fin.ext ?_)
  match a with
  | ⟨0, _⟩ => show win0_4.index t (0 : Fin 1) * 3072 + 1 * f.val = f.val; omega

theorem b2Blk (c : Dev nD) (t : Fin cfg0.N) (e : Fin 768) :
    (iblk m c 5 t : Vec Ideal S768 .f32) (ix1 e) = b2Arr m c (ix1 e) := by
  obtain ⟨-, -, -, -, -, -, -, -, -, -, h⟩ := idx_facts t
  show V m c main_arg5 (((cfg0.win 5).blk t).view.emb (ix1 e)) = V m c main_arg5 (ix1 e)
  refine congrArg _ (funext fun a => Fin.ext ?_)
  match a with
  | ⟨0, _⟩ => show win0_5.index t (0 : Fin 1) * 768 + 1 * e.val = e.val; omega

/-- Element `(p, q)` of the result block at point `t` is element `(256 t + p, q)` of the array. -/
theorem outIdx (t : Fin cfg0.N) (p : Fin 256) (q : Fin 768) :
    ((cfg0.win 6).blk t).view.emb (ix2 p q) = (ix2 (rowAt t p) q : S8192x768.Idx) := by
  obtain ⟨-, -, e0, e1, -⟩ := idx_facts t
  refine funext fun a => Fin.ext ?_
  match a with
  | ⟨0, _⟩ => show win0_6.index t (0 : Fin 2) * 256 + 1 * p.val = t.val * 256 + p.val; omega
  | ⟨1, _⟩ => show win0_6.index t (1 : Fin 2) * 768 + 1 * q.val = q.val; omega

/-- WHAT POINT `t` WRITES BACK is block `t` of `rowsOut`. -/
theorem flushed_eq (c : Dev nD) (t : Fin cfg0.N) :
    (dats m 0 c).flushed 6 t = ((cfg0.win 6).blk t).view.read (Elt Ideal) (rowsOut m c) := by
  show (cfg0.win 6).cut (grid0.coords t) ((dats m 0 c).after 6 t) = _
  rw [after0_6]
  unfold out0_6
  rw [View.canon_unit_zero off2]
  simp only [View.ld_unit_zero (S := S256x768) off2, View.ld_unit_zero (S := S768) off1, View.ld_unit_zero (S := S768x3072) off2,
    View.ld_unit_zero (S := S3072) off1, View.ld_unit_zero (S := S3072x768) off2]
  funext j
  show k0_pay1 (F := Ideal) (iblk m c 0 t) (iblk m c 1 t) (iblk m c 2 t) (iblk m c 4 t) (iblk m c 3 t) (iblk m c 5 t) j
    = rowsOut m c (((cfg0.win 6).blk t).view.emb j)
  obtain ⟨p, q, rfl⟩ : ∃ (p : Fin 256) (q : Fin 768), j = ix2 p q := ⟨j 0, j 1, eq_ix2 j⟩
  refine (Ffn.Body.payload_apply (iblk m c 0 t) (iblk m c 1 t) (iblk m c 2 t) (iblk m c 4 t) (iblk m c 3 t) (iblk m c 5 t) p q).trans ?_
  rw [outIdx]
  simp only [tokBlk, facBlk, w1tBlk, w2tBlk, b1Blk, b2Blk]
  rfl

/-- An index of the array is in point `t`'s result block iff each coordinate is in the block's range on its axis. -/
theorem mem_out (t : Fin cfg0.N) (i : S8192x768.Idx) :
    i ∈ ((cfg0.win 6).blk t).view.set ↔ ∀ a : Fin 2, win0_6.index t a * S256x768.size a ≤ (i a).val ∧ (i a).val < win0_6.index t a * S256x768.size a + S256x768.size a := by
  show i ∈ ((View.whole main_v6).slice (win0_6.rect t)).set ↔ _
  rw [View.set_slice_whole, Rect.mem_set_unit]
  exact Iff.rfl

/-- Every row is in SOME point's block: row `r` in that of point `r / 256`. -/
theorem covered (i : S8192x768.Idx) : ∃ t : Fin cfg0.N, (cfg0.win 6).flush t = true ∧ i ∈ ((cfg0.win 6).blk t).view.set := by
  have hi0 : (i 0).val < 8192 := (i 0).isLt
  have hi1 : (i 1).val < 768 := (i 1).isLt
  have hN : cfg0.N = 32 := N_0
  let t : Fin cfg0.N := ⟨(i 0).val / 256, by rw [hN]; omega⟩
  have ht : t.val = (i 0).val / 256 := rfl
  obtain ⟨-, -, e0, e1, -⟩ := idx_facts t
  refine ⟨t, flush0_6 t, ?_⟩
  rw [mem_out]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 768 ≤ (i 1).val ∧ (i 1).val < win0_6.index t (1 : Fin 2) * 768 + 768; omega

/-- THE ARRAY after the region: `rowsOut`. -/
theorem final (c : Dev nD) : (dats m 0 c).arrAt 6 cfg0.N = rowsOut m c :=
  (dats m 0 c).arrAt_eq_of_cover 6 (rowsOut m c) (fun t _ => flushed_eq m c t) covered

/-! ## The line after the region, and the result as a function of the arguments -/

/-- The line after the region re-lays the region's result array as [4, 2048, 768]. -/
theorem tail_eq (c : Dev nD) :
    Pipeline.afterTail₀ cfgs (dats m) 0 (V0 m) [hostOps1] c main_v7
      = shapeCast S4x2048x768 (rowsOut m c) shapeCasts_S8192x768_S4x2048x768 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = rowsOut m c :=
    (Pipeline.withArrays_arr spec0 launch0.win.arr_inj c (V0 m c) (fun w => (dats m 0 c).arrAt w cfg0.N) 6).trans (final m c)
  rw [e]
  rfl

/-- Re-laid as [4, 2048, 768], the region's result is `Ffn.onTokens` of the ARGUMENTS: the rows it found are the
    tokens re-laid, the factors the parameters' cosines, the two matrices the weights transposed. -/
theorem result_eq (c : Dev nD) :
    shapeCast S4x2048x768 (rowsOut m c) shapeCasts_S8192x768_S4x2048x768
      = Ffn.onTokens (xArg m c) (pArg m c) (w1Arg m c) (b1Arg m c) (w2Arg m c) (b2Arg m c) := by
  unfold rowsOut
  rw [b1Arr_eq, b2Arr_eq]
  refine Ffn.reshape_onRows (xArg m c) (pArg m c) (w1Arg m c) (b1Arg m c) (w2Arg m c) (b2Arg m c)
    (rowsArr m c) (facArr m c) (w1tArr m c) (w2tArr m c) ?_ ?_ ?_ ?_ shapeCasts_S8192x768_S4x2048x768
  · intro b s k
    rw [rowsArr_eq]
    exact Ffn.rows_of_tokens (xArg m c) shapeCasts_S4x2048x768_S8192x768 b s k
  · intro k
    rw [facArr_eq]
    rfl
  · intro k f
    rw [w1tArr_eq, truncf_apply, transpose_ix2_apply]
  · intro f e
    rw [w2tArr_eq, truncf_apply, transpose_ix2_apply]

/-- THE KERNEL'S RUN, read: every weakly fair execution terminates with the result buffer at `Ffn.onTokens` of the
    arguments, and the arguments as launched. -/
theorem run : θ_run defs (onTc (τ := τ) (main (F := Ideal))) ⟨m, fun _ => 0, ρ⟩ fun r => ∀ c : Dev nD,
      r.2.mem ((c.tc : Thread nD τ).loc main_v7)
        = Ffn.onTokens (xArg m c) (pArg m c) (w1Arg m c) (b1Arg m c) (w2Arg m c) (b2Arg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.Ffn.Kernel

end
-- ==== Proof.lean ====
/-
  The kernel and its reference compute one function, `Ffn.onTokens` (Proof/FfnSpec.lean): each of the 8192 tokens
  `x[b, s, ·]` goes through cosine features scaled by the parameters' cosines, a rectified affine layer of 3072 units
  and an affine layer of 768 outputs.

  The reference does so on the whole [4, 2048, 768] array at once (Proof/RefIsFfn.lean reads its operations at an
  index). The kernel re-lays the tokens as 8192 rows, transposes the two weight matrices on the host, and a region of 32
  points maps 256 rows each; a matrix product into a zero accumulator is the sum over the contracted coordinate, a
  change of float format is the identity on the extended reals, and the 32 result blocks tile the array
  (Proof/TokenPayload.lean, Proof/KernelArray.lean). Both sides multiply the same factors in the same order and add
  over the same coordinate, so no law of the extended reals beyond reading the sums is used, and the precondition
  (finite inputs) is never opened.

  The frames of the two kernel programs are the generated ones; the reference's frame is its generated run with the
  result dropped; the idealization rewrote nothing, so `preserves` is `True`.
-/
import proofs.«125096_j65481071409452_1_alg».proof.Defs
import proofs.«125096_j65481071409452_1_alg».proof.Proof.Gen.Kernel
import proofs.«125096_j65481071409452_1_alg».proof.Proof.Gen.Kernel.Skeleton
import proofs.«125096_j65481071409452_1_alg».proof.Proof.Gen.Kernel.Launch
import proofs.«125096_j65481071409452_1_alg».proof.Proof.Gen.Kernel.Points
import proofs.«125096_j65481071409452_1_alg».proof.Proof.Gen.Kernel.Frame
import proofs.«125096_j65481071409452_1_alg».proof.Proof.Gen.KernelIdeal
import proofs.«125096_j65481071409452_1_alg».proof.Proof.Gen.KernelIdeal.Skeleton
import proofs.«125096_j65481071409452_1_alg».proof.Proof.Gen.KernelIdeal.Launch
import proofs.«125096_j65481071409452_1_alg».proof.Proof.Gen.KernelIdeal.Points
import proofs.«125096_j65481071409452_1_alg».proof.Proof.Gen.KernelIdeal.Frame
import proofs.«125096_j65481071409452_1_alg».proof.Proof.Gen.ReferenceIdeal
import proofs.«125096_j65481071409452_1_alg».proof.Proof.Gen.ReferenceIdeal.Run
import proofs.«125096_j65481071409452_1_alg».proof.Proof.Gen.ReferenceIdeal.Read
import proofs.«125096_j65481071409452_1_alg».proof.Proof.Gen.Pre_finite_inputs
import proofs.«125096_j65481071409452_1_alg».proof.Proof.FfnSpec
import proofs.«125096_j65481071409452_1_alg».proof.Proof.RefIsFfn
import proofs.«125096_j65481071409452_1_alg».proof.Proof.TokenPayload
import proofs.«125096_j65481071409452_1_alg».proof.Proof.KernelArray
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result and the reference's are `Ffn.onTokens` of arguments that agree. -/
theorem algebraic : Cert.algebraic_KernelIdeal_ReferenceIdeal := by
  intro m ρ m' ρ' _ hagree
  refine ⟨fun c => Cert.Ffn.onTokens (Cert.Ffn.Kernel.xArg m c) (Cert.Ffn.Kernel.pArg m c) (Cert.Ffn.Kernel.w1Arg m c)
      (Cert.Ffn.Kernel.b1Arg m c) (Cert.Ffn.Kernel.w2Arg m c) (Cert.Ffn.Kernel.b2Arg m c), Cert.Ffn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Ffn.Ref.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
